-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S4096x16 .f32) (main_arg4 : FVec F S16x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S1x4096 : Shape := ⟨2, ![1, 4096]⟩
abbrev S1024x512 : Shape := ⟨2, ![1024, 512]⟩
abbrev S512x2048 : Shape := ⟨2, ![512, 2048]⟩
abbrev S512x16 : Shape := ⟨2, ![512, 16]⟩
abbrev S16x2048 : Shape := ⟨2, ![16, 2048]⟩
abbrev S1x2048 : Shape := ⟨2, ![1, 2048]⟩
abbrev S1024x2048 : Shape := ⟨2, ![1024, 2048]⟩
abbrev S1024x16 : Shape := ⟨2, ![1024, 16]⟩

abbrev nBuf : Space → Nat
  | .hbm => 9
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S8x2048x4096, .f32⟩
  | .local _ .vmem, ⟨0, _⟩ => ⟨S1024x512, .f32⟩
  | .local _ .vmem, ⟨1, _⟩ => ⟨S1024x512, .f32⟩
  | .local _ .vmem, ⟨2, _⟩ => ⟨S512x2048, .f32⟩
  | .local _ .vmem, ⟨3, _⟩ => ⟨S512x2048, .f32⟩
  | .local _ .vmem, ⟨4, _⟩ => ⟨S512x16, .f32⟩
  | .local _ .vmem, ⟨5, _⟩ => ⟨S512x16, .f32⟩
  | .local _ .vmem, ⟨6, _⟩ => ⟨S16x2048, .f32⟩
  | .local _ .vmem, ⟨7, _⟩ => ⟨S16x2048, .f32⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | .local _ .vmem, ⟨13, _⟩ => ⟨S1024x16, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x2048x4096_S16384x4096 : S8x2048x4096.ShapeCasts S16384x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512x16_S512x16_0_0 : ∀ a, (![0, 0] : Fin 2 → Nat) a + S512x16.size a ≤ S512x16.size a
  h_S512x16 : 0 < S512x16.numel
  inb_S16x2048_S16x2048_0_0 : ∀ a, (![0, 0] : Fin 2 → Nat) a + S16x2048.size a ≤ S16x2048.size a
  h_S16x2048 : 0 < S16x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S16384x4096_S8x2048x4096 : S16384x4096.ShapeCasts S8x2048x4096
  dot_S1024x512_S512x2048_S1024x2048_1_0_0_1_n_n_wf : DotDims.WF S1024x512 S512x2048 S1024x2048 [1] [0] [0] [1] [] []
  dot_S1024x512_S512x16_S1024x16_1_0_0_1_n_n_wf : DotDims.WF S1024x512 S512x16 S1024x16 [1] [0] [0] [1] [] []
  dot_S1024x16_S16x2048_S1024x2048_1_0_0_1_n_n_wf : DotDims.WF S1024x16 S16x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x4096.size a
  hwx0_3 : ∀ i : grid0.Coords, EltTy.bits .f32 = 32 ∨ (Rect.block (s := S16x4096) S16x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S16384x4096.size a
  hwx0_5 : ∀ i : grid0.Coords, EltTy.bits .f32 = 32 ∨ (Rect.block (s := S16384x4096) S1024x2048.size (cc0_transform_5 i) (hinb0_5 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8x2048x16 : Shape := ⟨3, ![8, 2048, 16]⟩
abbrev S1x1x4096 : Shape := ⟨3, ![1, 1, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8x2048x16, .f32⟩
  | .hbm, ⟨6, _⟩ => ⟨S8x2048x4096, .f32⟩
  | .hbm, ⟨7, _⟩ => ⟨S8x2048x4096, .f32⟩
  | .hbm, ⟨8, _⟩ => ⟨S1x1x4096, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x16_S8x2048x16_2_0_01_1_n_n_wf : DotDims.WF S8x2048x4096 S4096x16 S8x2048x16 [2] [0] [0, 1] [1] [] []
  dot_S8x2048x16_S16x4096_S8x2048x4096_2_0_01_1_n_n_wf : DotDims.WF S8x2048x16 S16x4096 S8x2048x4096 [2] [0] [0, 1] [1] [] []
  dot_S8x2048x4096_S4096x4096_S8x2048x4096_2_0_01_1_n_n_wf : DotDims.WF S8x2048x4096 S4096x4096 S8x2048x4096 [2] [0] [0, 1] [1] [] []

variable [Facts₀]

def dot_S8x2048x4096_S4096x16_S8x2048x16_2_0_01_1_n_n : DotDims S8x2048x4096 S4096x16 S8x2048x16 where
  lhsContracting := [2]
  rhsContracting := [0]
  lhsNonContracting := [0, 1]
  rhsNonContracting := [1]
  lhsBatch := []
  rhsBatch := []
  wf := dot_S8x2048x4096_S4096x16_S8x2048x16_2_0_01_1_n_n_wf
def dot_S8x2048x16_S16x4096_S8x2048x4096_2_0_01_1_n_n : DotDims S8x2048x16 S16x4096 S8x2048x4096 where
  lhsContracting := [2]
  rhsContracting := [0]
  lhsNonContracting := [0, 1]
  rhsNonContracting := [1]
  lhsBatch := []
  rhsBatch := []
  wf := dot_S8x2048x16_S16x4096_S8x2048x4096_2_0_01_1_n_n_wf
def dot_S8x2048x4096_S4096x4096_S8x2048x4096_2_0_01_1_n_n : DotDims S8x2048x4096 S4096x4096 S8x2048x4096 where
  lhsContracting := [2]
  rhsContracting := [0]
  lhsNonContracting := [0, 1]
  rhsNonContracting := [1]
  lhsBatch := []
  rhsBatch := []
  wf := dot_S8x2048x4096_S4096x4096_S8x2048x4096_2_0_01_1_n_n_wf

class Facts : Prop extends Facts₀ where

variable [Facts]
-- ==== Proof.Pieces.lean ====
/-
  What one run of the kernel body leaves behind, read as values, in each of its three control cases.

  The body keeps two running blocks between grid points: `acc` (1024 × 2048, the frozen product) and `lacc`
  (1024 × 16, the adapter's down-projection). At every point it adds the point's partial products to both:
  `acc ← acc + x·w`, `lacc ← lacc + x·a` for the point's blocks `x`, `w`, `a`.
    * first point of a reduction (case A): both blocks are first reset to zero, so the point leaves `0 + x·w` and `0 + x·a`;
    * a middle point (case B): it leaves `acc + x·w` and `lacc + x·a` over what the point before left;
    * last point of a reduction (case C): the same, and the output block is stored:
      `(acc' + bias) + (lacc'·bm)·scale` over the UPDATED blocks `acc'`, `lacc'`.
  Each statement is for any float instance: it only says which stored value is read back where.
-/
import proofs.«115661_j69011534512954_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a reduction: the frozen product's block is reset and then holds `0 + x·w`. -/
theorem acc_first (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S512x16 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S512x2048 .f32) (x2 : Vec F S512x16 .f32) (x3 : Vec F S16x2048 .f32) (x4 : Vec F S1x2048 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x2048) hz]
  simp only [View.readAt_eq_ld, harg3.read_unread, harg4.read_unread, harg5.read_unread, harg6.read_unread, harg7.read_unread, harg9.read_unread, harg10.read_unread,
    View.ld_unit_zero (S := S1024x512) hz, View.ld_unit_zero (S := S512x2048) hz, View.ld_unit_zero (S := S512x16) hz,
    View.ld_unit_zero (S := S16x2048) hz, View.ld_unit_zero (S := S1x2048) hz, View.ld_unit_zero (S := S1024x2048) hz, View.ld_unit_zero (S := S1024x16) hz,
    View.readCov_unit_zero (S := S1024x2048) _ hz]

/-- First point of a reduction: the down-projection's block is reset and then holds `0 + x·a`. -/
theorem lacc_first (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S512x16 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S512x2048 .f32) (x2 : Vec F S512x16 .f32) (x3 : Vec F S16x2048 .f32) (x4 : Vec F S1x2048 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz]
  simp only [View.readAt_eq_ld, harg3.read_unread, harg4.read_unread, harg5.read_unread, harg6.read_unread, harg7.read_unread, harg9.read_unread, harg10.read_unread,
    View.ld_unit_zero (S := S1024x512) hz, View.ld_unit_zero (S := S512x2048) hz, View.ld_unit_zero (S := S512x16) hz,
    View.ld_unit_zero (S := S16x2048) hz, View.ld_unit_zero (S := S1x2048) hz, View.ld_unit_zero (S := S1024x2048) hz, View.ld_unit_zero (S := S1024x16) hz,
    View.readCov_unit_zero (S := S1024x16) _ hz]

/-- A middle point: the frozen product's block grows by the point's partial product. -/
theorem acc_middle (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S512x16 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S512x2048 .f32) (x2 : Vec F S512x16 .f32) (x3 : Vec F S16x2048 .f32) (x4 : Vec F S1x2048 .f32) (xs0 : Vec F S1024x2048 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread,
    View.ld_unit_zero (S := S1024x512) hz, View.ld_unit_zero (S := S512x2048) hz, View.ld_unit_zero (S := S512x16) hz,
    View.ld_unit_zero (S := S16x2048) hz, View.ld_unit_zero (S := S1x2048) hz, View.ld_unit_zero (S := S1024x2048) hz, View.ld_unit_zero (S := S1024x16) hz]

/-- A middle point: the down-projection's block grows by the point's partial product. -/
theorem lacc_middle (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S512x16 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S512x2048 .f32) (x2 : Vec F S512x16 .f32) (x3 : Vec F S16x2048 .f32) (x4 : Vec F S1x2048 .f32) (xs0 : Vec F S1024x2048 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread,
    View.ld_unit_zero (S := S1024x512) hz, View.ld_unit_zero (S := S512x2048) hz, View.ld_unit_zero (S := S512x16) hz,
    View.ld_unit_zero (S := S16x2048) hz, View.ld_unit_zero (S := S1x2048) hz, View.ld_unit_zero (S := S1024x2048) hz, View.ld_unit_zero (S := S1024x16) hz]

/-- Last point of a reduction: the frozen product's block grows once more. -/
theorem acc_last (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S512x16 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S512x2048 .f32) (x2 : Vec F S512x16 .f32) (x3 : Vec F S16x2048 .f32) (x4 : Vec F S1x2048 .f32) (xs0 : Vec F S1024x2048 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread,
    View.ld_unit_zero (S := S1024x512) hz, View.ld_unit_zero (S := S512x2048) hz, View.ld_unit_zero (S := S512x16) hz,
    View.ld_unit_zero (S := S16x2048) hz, View.ld_unit_zero (S := S1x2048) hz, View.ld_unit_zero (S := S1024x2048) hz, View.ld_unit_zero (S := S1024x16) hz]

/-- Last point of a reduction: the down-projection's block grows once more. -/
theorem lacc_last (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S512x16 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S512x2048 .f32) (x2 : Vec F S512x16 .f32) (x3 : Vec F S16x2048 .f32) (x4 : Vec F S1x2048 .f32) (xs0 : Vec F S1024x2048 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread,
    View.ld_unit_zero (S := S1024x512) hz, View.ld_unit_zero (S := S512x2048) hz, View.ld_unit_zero (S := S512x16) hz,
    View.ld_unit_zero (S := S16x2048) hz, View.ld_unit_zero (S := S1x2048) hz, View.ld_unit_zero (S := S1024x2048) hz, View.ld_unit_zero (S := S1024x16) hz]

/-- Last point of a reduction: the output block is the finished frozen product plus the bias row, plus the finished
    down-projection times the adapter's up-projection block, scaled. -/
theorem out_last (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S512x16 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S512x2048 .f32) (x2 : Vec F S512x16 .f32) (x3 : Vec F S16x2048 .f32) (x4 : Vec F S1x2048 .f32) (xs0 : Vec F S1024x2048 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1
      = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread,
    View.ld_unit_zero (S := S1024x512) hz, View.ld_unit_zero (S := S512x2048) hz, View.ld_unit_zero (S := S512x16) hz,
    View.ld_unit_zero (S := S16x2048) hz, View.ld_unit_zero (S := S1x2048) hz, View.ld_unit_zero (S := S1024x2048) hz, View.ld_unit_zero (S := S1024x16) hz,
    View.readCov_unit_zero (S := S1024x2048) _ hz, View.readCov_unit_zero (S := S1024x16) _ hz]

end Cert.KernelIdeal.Pieces

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.LibMergeRows.lean ====
/-
  A reshape that merges the two leading axes of a rank-3 array into one, or splits them again, read at an entry.

  Row-major order puts entry `(i, j, k)` of an `[a, b, c]` array at position `(i · b + j) · c + k`, and entry `(r, k)`
  of an `[m, c]` array at `r · c + k`; a reshape keeps positions. So with `r = i · b + j` the two entries are the same
  element, whichever way the reshape goes.
-/
import Idealize.ShloMosaic.Lib.ValueIdx
import Idealize.ShloMosaic.Lib.Pipeline.Value

noncomputable section

namespace Cert.MergeRows

open Idealize.ShloMosaic Idealize.ShloMosaic.ValueIdx

variable {α : Type}

/-- `[a, b, c]` reshaped to `[m, c]`: row `r = i · b + j`, column `k` reads entry `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[m, c]` reshaped to `[a, b, c]`: entry `(i, j, k)` reads row `r = i · b + j`, column `k`. -/
theorem shapeCast_mc_abc_apply {a b c m : ℕ} (y : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ y h (ix3 i j k) = y (ix2 r k) :=
  shapeCast_apply y h _ _ (by
    rw [Shape.rowMajor_val_two, Shape.rowMajor_val_three]
    show r.val * c + k.val = (i.val * b + j.val) * c + k.val
    rw [hr])

end Cert.MergeRows

end
-- ==== Proof.Spec.lean ====
/-
  What the layer computes, as ONE function of its five argument arrays over the extended reals.

  For activations `x` (batch 8, 2048 positions, 4096 features), a frozen weight `W` (4096 × 4096), a bias `b`, and a
  rank-16 adapter `A` (4096 × 16), `B` (16 × 4096), the output at (batch `n`, position `s`, feature `o`) is

      (Σ_d x[n,s,d] · W[d,o]  +  b[o])  +  (Σ_r (Σ_d x[n,s,d] · A[d,r]) · B[r,o]) · 1

  where the trailing factor is the adapter's scale, the float word of 1.0, kept as a word: both programs multiply by the
  same word, so its value is never needed. `layer` is this function on the rank-3 arrays. `rows` is the same function
  on the activations laid out as 16384 rows (row `n · 2048 + s`) and the bias as a 1 × 4096 row, which is the layout the
  tiled computation works in. `layer_eq_rows`: reshaping the rows form back is the rank-3 form — a reshape keeps
  row-major positions, and nothing else changes.
-/
import Idealize.ShloMosaic.PureOps.Ideal
import Idealize.ShloMosaic.Lib.ValueIdx
import Idealize.ShloMosaic.Lib.ValueLayout
import Idealize.ShloMosaic.Lib.Pipeline.Value
import proofs.«115661_j69011534512954_1_alg».proof.Proof.LibMergeRows

noncomputable section

open scoped BigOperators

namespace Cert.LoraLayer

open Idealize.ShloMosaic Idealize.ShloMosaic.ValueIdx

/-- The adapter's scale: the float word of 1.0 read as an extended real. -/
abbrev scale : EReal := Ideal.ofBits .f32 0x3F800000#32

/-- The layer on flattened rows. -/
def rows (X : (⟨2, ![16384, 4096]⟩ : Shape).Idx → EReal) (W : (⟨2, ![4096, 4096]⟩ : Shape).Idx → EReal)
    (bias : (⟨2, ![1, 4096]⟩ : Shape).Idx → EReal) (A : (⟨2, ![4096, 16]⟩ : Shape).Idx → EReal)
    (B : (⟨2, ![16, 4096]⟩ : Shape).Idx → EReal) : (⟨2, ![16384, 4096]⟩ : Shape).Idx → EReal :=
  fun j => (∑ d : Fin 4096, X (ix2 (j 0) d) * W (ix2 d (j 1)) + bias (ix2 (0 : Fin 1) (j 1)))
    + (∑ r : Fin 16, (∑ d : Fin 4096, X (ix2 (j 0) d) * A (ix2 d r)) * B (ix2 r (j 1))) * scale

theorem rows_apply (X : (⟨2, ![16384, 4096]⟩ : Shape).Idx → EReal) (W : (⟨2, ![4096, 4096]⟩ : Shape).Idx → EReal)
    (bias : (⟨2, ![1, 4096]⟩ : Shape).Idx → EReal) (A : (⟨2, ![4096, 16]⟩ : Shape).Idx → EReal)
    (B : (⟨2, ![16, 4096]⟩ : Shape).Idx → EReal) (p : Fin 16384) (o : Fin 4096) :
    rows X W bias A B (ix2 p o)
      = (∑ d : Fin 4096, X (ix2 p d) * W (ix2 d o) + bias (ix2 (0 : Fin 1) o))
        + (∑ r : Fin 16, (∑ d : Fin 4096, X (ix2 p d) * A (ix2 d r)) * B (ix2 r o)) * scale := rfl

/-- The layer on the rank-3 activations. -/
def layer (x : (⟨3, ![8, 2048, 4096]⟩ : Shape).Idx → EReal) (W : (⟨2, ![4096, 4096]⟩ : Shape).Idx → EReal)
    (b : (⟨1, ![4096]⟩ : Shape).Idx → EReal) (A : (⟨2, ![4096, 16]⟩ : Shape).Idx → EReal)
    (B : (⟨2, ![16, 4096]⟩ : Shape).Idx → EReal) : (⟨3, ![8, 2048, 4096]⟩ : Shape).Idx → EReal :=
  fun i => (∑ d : Fin 4096, x (ix3 (i 0) (i 1) d) * W (ix2 d (i 2)) + b (ix1 (i 2)))
    + (∑ r : Fin 16, (∑ d : Fin 4096, x (ix3 (i 0) (i 1) d) * A (ix2 d r)) * B (ix2 r (i 2))) * scale

theorem layer_apply (x : (⟨3, ![8, 2048, 4096]⟩ : Shape).Idx → EReal) (W : (⟨2, ![4096, 4096]⟩ : Shape).Idx → EReal)
    (b : (⟨1, ![4096]⟩ : Shape).Idx → EReal) (A : (⟨2, ![4096, 16]⟩ : Shape).Idx → EReal)
    (B : (⟨2, ![16, 4096]⟩ : Shape).Idx → EReal) (n : Fin 8) (s : Fin 2048) (o : Fin 4096) :
    layer x W b A B (ix3 n s o)
      = (∑ d : Fin 4096, x (ix3 n s d) * W (ix2 d o) + b (ix1 o))
        + (∑ r : Fin 16, (∑ d : Fin 4096, x (ix3 n s d) * A (ix2 d r)) * B (ix2 r o)) * scale := rfl

/-- Flatten the activations to rows and the bias to a row, compute on rows, reshape back: the rank-3 layer. -/
theorem layer_eq_rows (x : (⟨3, ![8, 2048, 4096]⟩ : Shape).Idx → EReal) (W : (⟨2, ![4096, 4096]⟩ : Shape).Idx → EReal)
    (b : (⟨1, ![4096]⟩ : Shape).Idx → EReal) (A : (⟨2, ![4096, 16]⟩ : Shape).Idx → EReal)
    (B : (⟨2, ![16, 4096]⟩ : Shape).Idx → EReal)
    (hx : (⟨3, ![8, 2048, 4096]⟩ : Shape).ShapeCasts ⟨2, ![16384, 4096]⟩)
    (hb : (⟨1, ![4096]⟩ : Shape).ShapeCasts ⟨2, ![1, 4096]⟩)
    (ho : (⟨2, ![16384, 4096]⟩ : Shape).ShapeCasts ⟨3, ![8, 2048, 4096]⟩) :
    shapeCast ⟨3, ![8, 2048, 4096]⟩
        (rows (shapeCast ⟨2, ![16384, 4096]⟩ x hx) W (shapeCast ⟨2, ![1, 4096]⟩ b hb) A B) ho
      = layer x W b A B := by
  funext i
  obtain ⟨n, s, o, rfl⟩ : ∃ (n : Fin 8) (s : Fin 2048) (o : Fin 4096), i = ix3 n s o := ⟨i 0, i 1, i 2, eq_ix3 i⟩
  have hlt : n.val * 2048 + s.val < 16384 := by have := n.isLt; have := s.isLt; omega
  rw [Cert.MergeRows.shapeCast_mc_abc_apply _ ho n s o ⟨n.val * 2048 + s.val, hlt⟩ rfl, rows_apply, layer_apply]
  simp only [fun d => Cert.MergeRows.shapeCast_abc_mc_apply x hx n s d ⟨n.val * 2048 + s.val, hlt⟩ rfl,
    shapeCast_a_1a_apply b hb]

end Cert.LoraLayer

end
-- ==== Proof.Payloads.lean ====
/-
  The kernel body's stored values, read at one entry, over the extended reals.

  At the ideal instance a change of float format is the identity and the matrix unit's product into a zero accumulator
  is the plain sum of products, so:
    * a reset block is zero everywhere;
    * an accumulate step leaves, at `(p, q)`, the old entry plus `Σ_d x[p, d] · w[d, q]` over the point's 512 contracted
      indices — for the frozen product (`w` 512 × 2048) and for the down-projection (`a` 512 × 16) alike;
    * the output block at `(p, q)` is `(acc[p, q] + bias[0, q]) + (Σ_r lacc[p, r] · bm[r, q]) · scale`.
-/
import proofs.«115661_j69011534512954_1_alg».proof.Proof.Gen.KernelIdeal.Skeleton
import proofs.«115661_j69011534512954_1_alg».proof.Proof.LibPlainMatmul
import proofs.«115661_j69011534512954_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen
open Idealize.ShloMosaic Idealize.ShloMosaic.ValueIdx

/-- The reset of the frozen product's block stores zero. -/
theorem reset_acc_apply (j : S1024x2048.Idx) : k0_pay1 (F := Ideal) j = 0 := by
  unfold k0_pay1
  rw [shapeCast_self]
  exact Ideal.ofBits_zero_f32

/-- The reset of the down-projection's block stores zero. -/
theorem reset_lacc_apply (j : S1024x16.Idx) : k0_pay2 (F := Ideal) j = 0 := by
  unfold k0_pay2
  rw [shapeCast_self]
  exact Ideal.ofBits_zero_f32

/-- One accumulate step of the frozen product at `(p, q)`. -/
theorem acc_step_apply (x : Vec Ideal S1024x512 .f32) (w : Vec Ideal S512x2048 .f32) (acc : Vec Ideal S1024x2048 .f32)
    (p : Fin 1024) (q : Fin 2048) :
    k0_pay4 x w acc (ix2 p q) = acc (ix2 p q) + ∑ d : Fin 512, x (ix2 p d) * w (ix2 d q) := by
  unfold k0_pay4 k0_pay3
  rw [shapeCast_self, shapeCast_self]
  exact congrArg (acc (ix2 p q) + ·) (Cert.Gnn.plain_matmul_apply 1024 512 2048 none x w (ix2 p q))

/-- One accumulate step of the down-projection at `(p, r)`. -/
theorem lacc_step_apply (x : Vec Ideal S1024x512 .f32) (a : Vec Ideal S512x16 .f32) (lacc : Vec Ideal S1024x16 .f32)
    (p : Fin 1024) (r : Fin 16) :
    k0_pay5 x a lacc (ix2 p r) = lacc (ix2 p r) + ∑ d : Fin 512, x (ix2 p d) * a (ix2 d r) := by
  unfold k0_pay5 k0_pay3
  rw [shapeCast_self, shapeCast_self]
  exact congrArg (lacc (ix2 p r) + ·) (Cert.Gnn.plain_matmul_apply 1024 512 16 none x a (ix2 p r))

/-- The output block at `(p, q)`. -/
theorem out_apply (bm : Vec Ideal S16x2048 .f32) (lacc : Vec Ideal S1024x16 .f32) (acc : Vec Ideal S1024x2048 .f32)
    (bias : Vec Ideal S1x2048 .f32) (p : Fin 1024) (q : Fin 2048) :
    k0_pay6 bm lacc acc bias (ix2 p q)
      = (acc (ix2 p q) + bias (ix2 (0 : Fin 1) q))
        + (∑ r : Fin 16, lacc (ix2 p r) * bm (ix2 r q)) * Cert.LoraLayer.scale := by
  unfold k0_pay6
  rw [shapeCast_self]
  refine congrArg₂ (· + ·)
    (congrArg (acc (ix2 p q) + ·) (broadcastTo_1b_ab_apply bias broadcasts_S1x2048_S1024x2048 p q)) ?_
  exact congrArg (· * Cert.LoraLayer.scale) (Cert.Gnn.plain_matmul_apply 1024 16 2048 none lacc bm (ix2 p q))

end Cert.KernelIdeal.Payloads

end
-- ==== Proof.LibPartialProduct.lean ====
/-
  An entry of the plain product of an `R × C` array with a `C × N` array — entry `(r, e)` is the sum over the shared
  axis `d` of `x[r, d] · w[d, e]` — accumulated along `d` one stretch of consecutive indices after another, over the
  extended reals.

  `prodUpTo x w n r e` is the part of that sum with `d < n`. With no index it is zero; a further stretch of `k`
  indices adds exactly its own `k` products (`prodUpTo_add`: a sum over an initial segment of the naturals splits at
  any point, and addition of extended reals is associative and commutative, so nothing has to be finite); with all `C`
  indices it is the whole entry (`prodUpTo_full`). Coordinates are natural numbers and an entry outside the array reads
  zero, so that block offsets are plain arithmetic of naturals.
-/
import Idealize.ShloMosaic.PureOps.Ideal.Laws
import Idealize.ShloMosaic.Lib.ValueIdx

noncomputable section

open scoped BigOperators

namespace Cert.PartialProduct

open Idealize.ShloMosaic Idealize.ShloMosaic.ValueIdx

variable {R C N : ℕ}

/-- An entry of a rank-2 array at natural-number coordinates; zero outside the array. -/
def at2 {A B : ℕ} (x : (⟨2, ![A, B]⟩ : Shape).Idx → EReal) (a b : ℕ) : EReal :=
  if h : a < A ∧ b < B then x (ix2 ⟨a, h.1⟩ ⟨b, h.2⟩) else 0

/-- Inside the array it is the entry. -/
theorem at2_of_lt {A B : ℕ} (x : (⟨2, ![A, B]⟩ : Shape).Idx → EReal) {a b : ℕ} (ha : a < A) (hb : b < B) :
    at2 x a b = x (ix2 ⟨a, ha⟩ ⟨b, hb⟩) := dif_pos ⟨ha, hb⟩

/-- The entry `(r, e)` of `x · w` restricted to the contracted indices `d < n`. -/
def prodUpTo (x : (⟨2, ![R, C]⟩ : Shape).Idx → EReal) (w : (⟨2, ![C, N]⟩ : Shape).Idx → EReal) (n r e : ℕ) : EReal :=
  ∑ d ∈ Finset.range n, at2 x r d * at2 w d e

/-- No contracted index: zero. -/
theorem prodUpTo_zero (x : (⟨2, ![R, C]⟩ : Shape).Idx → EReal) (w : (⟨2, ![C, N]⟩ : Shape).Idx → EReal) (r e : ℕ) :
    prodUpTo x w 0 r e = 0 := Finset.sum_range_zero _

/-- A further stretch of `k` contracted indices adds its `k` products. -/
theorem prodUpTo_add (x : (⟨2, ![R, C]⟩ : Shape).Idx → EReal) (w : (⟨2, ![C, N]⟩ : Shape).Idx → EReal) (n k r e : ℕ) :
    prodUpTo x w (n + k) r e = prodUpTo x w n r e + ∑ d : Fin k, at2 x r (n + d.val) * at2 w (n + d.val) e := by
  unfold prodUpTo
  rw [Finset.sum_range_add]
  exact congrArg (_ + ·) (Finset.sum_range fun d => at2 x r (n + d) * at2 w (n + d) e)

/-- The first stretch, started from a zero accumulator: `0 + ` its `k` products is the product up to `k`. -/
theorem prodUpTo_first (x : (⟨2, ![R, C]⟩ : Shape).Idx → EReal) (w : (⟨2, ![C, N]⟩ : Shape).Idx → EReal) (k r e : ℕ)
    (blk : Fin k → EReal) (hb : ∀ d : Fin k, blk d = at2 x r d.val * at2 w d.val e) :
    (0 : EReal) + ∑ d : Fin k, blk d = prodUpTo x w k r e := by
  rw [zero_add]
  unfold prodUpTo
  rw [Finset.sum_range]
  exact Finset.sum_congr rfl fun d _ => hb d

/-- One step of the accumulation in stretches of `k`: the product up to stretch `n`, plus stretch `n`'s products, is the
    product up to stretch `n + 1`. -/
theorem prodUpTo_step (x : (⟨2, ![R, C]⟩ : Shape).Idx → EReal) (w : (⟨2, ![C, N]⟩ : Shape).Idx → EReal) (k n r e : ℕ)
    (s : EReal) (blk : Fin k → EReal) (hs : s = prodUpTo x w (k * n) r e)
    (hb : ∀ d : Fin k, blk d = at2 x r (k * n + d.val) * at2 w (k * n + d.val) e) :
    s + ∑ d : Fin k, blk d = prodUpTo x w (k * (n + 1)) r e := by
  rw [Nat.mul_succ, prodUpTo_add, hs]
  exact congrArg (prodUpTo x w (k * n) r e + ·) (Finset.sum_congr rfl fun d _ => hb d)

/-- All `C` contracted indices: the whole entry of `x · w`. -/
theorem prodUpTo_full (x : (⟨2, ![R, C]⟩ : Shape).Idx → EReal) (w : (⟨2, ![C, N]⟩ : Shape).Idx → EReal) {r e : ℕ}
    (hr : r < R) (he : e < N) :
    prodUpTo x w C r e = ∑ d : Fin C, x (ix2 ⟨r, hr⟩ d) * w (ix2 d ⟨e, he⟩) := by
  unfold prodUpTo
  rw [Finset.sum_range]
  exact Finset.sum_congr rfl fun d _ => by rw [at2_of_lt x hr d.isLt, at2_of_lt w d.isLt he]

end Cert.PartialProduct

end
-- ==== Proof.Blocks.lean ====
/-
  The blocks the grid walks over, read at an entry of the arrays they are cut from.

  The grid has 16 × 2 × 8 points; point `t` is row tile `t / 16`, column tile `(t / 8) % 2`, reduction step `t % 8`
  (the last axis runs fastest). At point `t` the body sees
    * rows `1024 · (t / 16) + p`, features `512 · (t % 8) + d` of the flattened activations,
    * features `512 · (t % 8) + d`, columns `2048 · ((t / 8) % 2) + q` of the frozen weight,
    * features `512 · (t % 8) + d`, all 16 columns of the down-projection,
    * all 16 rows, columns `2048 · ((t / 8) % 2) + q` of the up-projection,
    * columns `2048 · ((t / 8) % 2) + q` of the bias row.
  A block's coordinate in its array is always block index × block size + the coordinate inside the block; which block
  index each window uses at which point is decided once over the 256 points.
-/
import proofs.«115661_j69011534512954_1_alg».proof.Proof.Gen.KernelIdeal.Frame
import proofs.«115661_j69011534512954_1_alg».proof.Proof.LibPartialProduct
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.PartialProduct

variable (m : (ℓ : Loc nD τ sig) → Buf (Elt Ideal) ℓ)

/-! ## The five arrays as the tiled computation finds them -/

/-- The activations flattened to 16384 rows. -/
abbrev actRows (c : Dev nD) : (⟨2, ![16384, 4096]⟩ : Shape).Idx → EReal := V m c main_v0
/-- The frozen weight. -/
abbrev frozen (c : Dev nD) : (⟨2, ![4096, 4096]⟩ : Shape).Idx → EReal := V m c main_arg1
/-- The adapter's down-projection. -/
abbrev down (c : Dev nD) : (⟨2, ![4096, 16]⟩ : Shape).Idx → EReal := V m c main_arg3
/-- The adapter's up-projection. -/
abbrev up (c : Dev nD) : (⟨2, ![16, 4096]⟩ : Shape).Idx → EReal := V m c main_arg4
/-- The bias as a 1 × 4096 row. -/
abbrev biasRow (c : Dev nD) : (⟨2, ![1, 4096]⟩ : Shape).Idx → EReal := V m c main_v1

/-! ## Which block each window uses at which point -/

theorem tile_act : ∀ t : Fin cfg0.N, win0_0.index t (0 : Fin 2) = t.val / 16 ∧ win0_0.index t (1 : Fin 2) = t.val % 8 :=
  (by decide +kernel : ∀ t : Fin grid0.N, win0_0.index t (0 : Fin 2) = t.val / 16 ∧ win0_0.index t (1 : Fin 2) = t.val % 8)
theorem tile_frozen : ∀ t : Fin cfg0.N, win0_1.index t (0 : Fin 2) = t.val % 8 ∧ win0_1.index t (1 : Fin 2) = t.val / 8 % 2 :=
  (by decide +kernel : ∀ t : Fin grid0.N, win0_1.index t (0 : Fin 2) = t.val % 8 ∧ win0_1.index t (1 : Fin 2) = t.val / 8 % 2)
theorem tile_down : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem tile_up : ∀ t : Fin cfg0.N, win0_3.index t (0 : Fin 2) = 0 ∧ win0_3.index t (1 : Fin 2) = t.val / 8 % 2 :=
  (by decide +kernel : ∀ t : Fin grid0.N, win0_3.index t (0 : Fin 2) = 0 ∧ win0_3.index t (1 : Fin 2) = t.val / 8 % 2)
theorem tile_bias : ∀ t : Fin cfg0.N, win0_4.index t (0 : Fin 2) = 0 ∧ win0_4.index t (1 : Fin 2) = t.val / 8 % 2 :=
  (by decide +kernel : ∀ t : Fin grid0.N, win0_4.index t (0 : Fin 2) = 0 ∧ win0_4.index t (1 : Fin 2) = t.val / 8 % 2)
theorem tile_out : ∀ t : Fin cfg0.N, win0_5.index t (0 : Fin 2) = t.val / 16 ∧ win0_5.index t (1 : Fin 2) = t.val / 8 % 2 :=
  (by decide +kernel : ∀ t : Fin grid0.N, win0_5.index t (0 : Fin 2) = t.val / 16 ∧ win0_5.index t (1 : Fin 2) = t.val / 8 % 2)

theorem point_lt (t : Fin cfg0.N) : t.val < 256 := lt_of_lt_of_eq t.isLt (show cfg0.N = 256 from N_0)

/-! ## The blocks read at an entry -/

/-- The activations' block at point `t`. -/
theorem act_block (c : Dev nD) (t : Fin cfg0.N) (p : Fin 1024) (d : Fin 512) :
    (iblk m c 0 t : Vec Ideal S1024x512 .f32) (ix2 p d)
      = at2 (actRows m c) (1024 * (t.val / 16) + p.val) (512 * (t.val % 8) + d.val) := by
  have ht := point_lt t
  have h1 : 1024 * (t.val / 16) + p.val < 16384 := by have := p.isLt; omega
  have h2 : 512 * (t.val % 8) + d.val < 4096 := by have := d.isLt; omega
  rw [at2_of_lt _ h1 h2]
  unfold iblk
  rw [View.read_apply]
  show V m c main_v0 _ = V m c main_v0 _
  refine congrArg (V m c main_v0) (funext fun a => Fin.ext ?_)
  match a with
  | ⟨0, _⟩ => show win0_0.index t 0 * 1024 + 1 * p.val = 1024 * (t.val / 16) + p.val; rw [(tile_act t).1]; omega
  | ⟨1, _⟩ => show win0_0.index t 1 * 512 + 1 * d.val = 512 * (t.val % 8) + d.val; rw [(tile_act t).2]; omega

/-- The frozen weight's block at point `t`. -/
theorem frozen_block (c : Dev nD) (t : Fin cfg0.N) (d : Fin 512) (q : Fin 2048) :
    (iblk m c 1 t : Vec Ideal S512x2048 .f32) (ix2 d q)
      = at2 (frozen m c) (512 * (t.val % 8) + d.val) (2048 * (t.val / 8 % 2) + q.val) := by
  have ht := point_lt t
  have h1 : 512 * (t.val % 8) + d.val < 4096 := by have := d.isLt; omega
  have h2 : 2048 * (t.val / 8 % 2) + q.val < 4096 := by have := q.isLt; omega
  rw [at2_of_lt _ h1 h2]
  unfold iblk
  rw [View.read_apply]
  show V m c main_arg1 _ = V m c main_arg1 _
  refine congrArg (V m c main_arg1) (funext fun a => Fin.ext ?_)
  match a with
  | ⟨0, _⟩ => show win0_1.index t 0 * 512 + 1 * d.val = 512 * (t.val % 8) + d.val; rw [(tile_frozen t).1]; omega
  | ⟨1, _⟩ => show win0_1.index t 1 * 2048 + 1 * q.val = 2048 * (t.val / 8 % 2) + q.val; rw [(tile_frozen t).2]; omega

/-- The down-projection's block at point `t`. -/
theorem down_block (c : Dev nD) (t : Fin cfg0.N) (d : Fin 512) (r : Fin 16) :
    (iblk m c 2 t : Vec Ideal S512x16 .f32) (ix2 d r)
      = at2 (down m c) (512 * (t.val % 8) + d.val) r.val := by
  have ht := point_lt t
  have h1 : 512 * (t.val % 8) + d.val < 4096 := by have := d.isLt; omega
  rw [at2_of_lt _ h1 r.isLt]
  unfold iblk
  rw [View.read_apply]
  show V m c main_arg3 _ = V m c main_arg3 _
  refine congrArg (V m c main_arg3) (funext fun a => Fin.ext ?_)
  match a with
  | ⟨0, _⟩ => show win0_2.index t 0 * 512 + 1 * d.val = 512 * (t.val % 8) + d.val; rw [(tile_down t).1]; omega
  | ⟨1, _⟩ => show win0_2.index t 1 * 16 + 1 * r.val = r.val; rw [(tile_down t).2]; omega

/-- The up-projection's block at point `t`. -/
theorem up_block (c : Dev nD) (t : Fin cfg0.N) (r : Fin 16) (q : Fin 2048) :
    (iblk m c 3 t : Vec Ideal S16x2048 .f32) (ix2 r q)
      = at2 (up m c) r.val (2048 * (t.val / 8 % 2) + q.val) := by
  have ht := point_lt t
  have h2 : 2048 * (t.val / 8 % 2) + q.val < 4096 := by have := q.isLt; omega
  rw [at2_of_lt _ r.isLt h2]
  unfold iblk
  rw [View.read_apply]
  show V m c main_arg4 _ = V m c main_arg4 _
  refine congrArg (V m c main_arg4) (funext fun a => Fin.ext ?_)
  match a with
  | ⟨0, _⟩ => show win0_3.index t 0 * 16 + 1 * r.val = r.val; rw [(tile_up t).1]; omega
  | ⟨1, _⟩ => show win0_3.index t 1 * 2048 + 1 * q.val = 2048 * (t.val / 8 % 2) + q.val; rw [(tile_up t).2]; omega

/-- The bias row's block at point `t`. -/
theorem bias_block (c : Dev nD) (t : Fin cfg0.N) (q : Fin 2048) :
    (iblk m c 4 t : Vec Ideal S1x2048 .f32) (ix2 (0 : Fin 1) q)
      = at2 (biasRow m c) 0 (2048 * (t.val / 8 % 2) + q.val) := by
  have ht := point_lt t
  have h2 : 2048 * (t.val / 8 % 2) + q.val < 4096 := by have := q.isLt; omega
  rw [at2_of_lt _ Nat.one_pos h2]
  unfold iblk
  rw [View.read_apply]
  show V m c main_v1 _ = V m c main_v1 _
  refine congrArg (V m c main_v1) (funext fun a => Fin.ext ?_)
  match a with
  | ⟨0, _⟩ => show win0_4.index t 0 * 1 + 1 * 0 = 0; rw [(tile_bias t).1]
  | ⟨1, _⟩ => show win0_4.index t 1 * 2048 + 1 * q.val = 2048 * (t.val / 8 % 2) + q.val; rw [(tile_bias t).2]; omega

/-! ## The blocks under names of their literal types

A window's block has the window's own index and element types; arithmetic on its entries is written over these names. -/

/-- The activations' block at point `t`. -/
abbrev actBlk (c : Dev nD) (t : Fin cfg0.N) : Vec Ideal S1024x512 .f32 := iblk m c 0 t
/-- The frozen weight's block at point `t`. -/
abbrev frozenBlk (c : Dev nD) (t : Fin cfg0.N) : Vec Ideal S512x2048 .f32 := iblk m c 1 t
/-- The down-projection's block at point `t`. -/
abbrev downBlk (c : Dev nD) (t : Fin cfg0.N) : Vec Ideal S512x16 .f32 := iblk m c 2 t
/-- The up-projection's block at point `t`. -/
abbrev upBlk (c : Dev nD) (t : Fin cfg0.N) : Vec Ideal S16x2048 .f32 := iblk m c 3 t
/-- The bias row's block at point `t`. -/
abbrev biasBlk (c : Dev nD) (t : Fin cfg0.N) : Vec Ideal S1x2048 .f32 := iblk m c 4 t

theorem actBlk_apply (c : Dev nD) (t : Fin cfg0.N) (p : Fin 1024) (d : Fin 512) :
    actBlk m c t (ix2 p d) = at2 (actRows m c) (1024 * (t.val / 16) + p.val) (512 * (t.val % 8) + d.val) :=
  act_block m c t p d
theorem frozenBlk_apply (c : Dev nD) (t : Fin cfg0.N) (d : Fin 512) (q : Fin 2048) :
    frozenBlk m c t (ix2 d q) = at2 (frozen m c) (512 * (t.val % 8) + d.val) (2048 * (t.val / 8 % 2) + q.val) :=
  frozen_block m c t d q
theorem downBlk_apply (c : Dev nD) (t : Fin cfg0.N) (d : Fin 512) (r : Fin 16) :
    downBlk m c t (ix2 d r) = at2 (down m c) (512 * (t.val % 8) + d.val) r.val :=
  down_block m c t d r
theorem upBlk_apply (c : Dev nD) (t : Fin cfg0.N) (r : Fin 16) (q : Fin 2048) :
    upBlk m c t (ix2 r q) = at2 (up m c) r.val (2048 * (t.val / 8 % 2) + q.val) :=
  up_block m c t r q
theorem biasBlk_apply (c : Dev nD) (t : Fin cfg0.N) (q : Fin 2048) :
    biasBlk m c t (ix2 (0 : Fin 1) q) = at2 (biasRow m c) 0 (2048 * (t.val / 8 % 2) + q.val) :=
  bias_block m c t q

end Cert.KernelIdeal.Blocks

end
-- ==== Proof.Accum.lean ====
/-
  The two blocks the kernel carries from point to point hold partial products.

  Fix a row tile and a column tile. Along the 8 reduction steps the body adds, step by step, the products over 512 more
  contracted indices. So after the point at step `k` the frozen product's block holds, at `(p, q)`, the product of the
  flattened activations with the frozen weight restricted to the first `512 · (k + 1)` features, at the tile's row and
  column; and the down-projection's block the same with the adapter's down-projection, at the tile's row and column
  `r`. This is an induction over the 256 points in launch order: at a step-0 point the blocks are reset first (zero is
  the product over no features), at any other point the point before is the previous step of the same tile pair.
  After step 7 all 4096 features are in, and the output block stored there is the corresponding tile of `rows`.
-/
import proofs.«115661_j69011534512954_1_alg».proof.Proof.Pieces
import proofs.«115661_j69011534512954_1_alg».proof.Proof.Payloads
import proofs.«115661_j69011534512954_1_alg».proof.Proof.Blocks
import proofs.«115661_j69011534512954_1_alg».proof.Proof.Spec

set_option maxRecDepth 16384

noncomputable section

open scoped BigOperators
open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.PartialProduct
open Cert.KernelIdeal.Blocks Cert.KernelIdeal.Pieces Cert.KernelIdeal.Payloads

variable (m : (ℓ : Loc nD τ sig) → Buf (Elt Ideal) ℓ)

/-- The frozen product's block after point `n`: the product over the first `512 · (n % 8 + 1)` features. -/
def accAt (c : Dev nD) (n : ℕ) : Vec Ideal S1024x2048 .f32 := fun y =>
  prodUpTo (actRows m c) (frozen m c) (512 * (n % 8 + 1)) (1024 * (n / 16) + (y 0).val) (2048 * (n / 8 % 2) + (y 1).val)

/-- The down-projection's block after point `n`. -/
def laccAt (c : Dev nD) (n : ℕ) : Vec Ideal S1024x16 .f32 := fun y =>
  prodUpTo (actRows m c) (down m c) (512 * (n % 8 + 1)) (1024 * (n / 16) + (y 0).val) (y 1).val

/-- One step of the frozen product at point `t`, over a block that holds the product up to step `t % 8`. -/
theorem acc_grow (c : Dev nD) (t : Fin cfg0.N) (prev : Vec Ideal S1024x2048 .f32)
    (hprev : ∀ (p : Fin 1024) (q : Fin 2048), prev (ix2 p q)
      = prodUpTo (actRows m c) (frozen m c) (512 * (t.val % 8)) (1024 * (t.val / 16) + p.val) (2048 * (t.val / 8 % 2) + q.val)) :
    k0_pay4 (actBlk m c t) (frozenBlk m c t) prev = accAt m c t.val := by
  funext y
  obtain ⟨p, q, rfl⟩ : ∃ (p : Fin 1024) (q : Fin 2048), y = ix2 p q := ⟨y 0, y 1, eq_ix2 y⟩
  refine (acc_step_apply (actBlk m c t) (frozenBlk m c t) prev p q).trans ?_
  exact prodUpTo_step (actRows m c) (frozen m c) 512 (t.val % 8) (1024 * (t.val / 16) + p.val) (2048 * (t.val / 8 % 2) + q.val)
    (prev (ix2 p q)) (fun d => actBlk m c t (ix2 p d) * frozenBlk m c t (ix2 d q))
    (hprev p q) (fun d => by rw [actBlk_apply m c t p d, frozenBlk_apply m c t d q])

/-- One step of the down-projection at point `t`. -/
theorem lacc_grow (c : Dev nD) (t : Fin cfg0.N) (prev : Vec Ideal S1024x16 .f32)
    (hprev : ∀ (p : Fin 1024) (r : Fin 16), prev (ix2 p r)
      = prodUpTo (actRows m c) (down m c) (512 * (t.val % 8)) (1024 * (t.val / 16) + p.val) r.val) :
    k0_pay5 (actBlk m c t) (downBlk m c t) prev = laccAt m c t.val := by
  funext y
  obtain ⟨p, r, rfl⟩ : ∃ (p : Fin 1024) (r : Fin 16), y = ix2 p r := ⟨y 0, y 1, eq_ix2 y⟩
  refine (lacc_step_apply (actBlk m c t) (downBlk m c t) prev p r).trans ?_
  exact prodUpTo_step (actRows m c) (down m c) 512 (t.val % 8) (1024 * (t.val / 16) + p.val) r.val
    (prev (ix2 p r)) (fun d => actBlk m c t (ix2 p d) * downBlk m c t (ix2 d r))
    (hprev p r) (fun d => by rw [actBlk_apply m c t p d, downBlk_apply m c t d r])

/-- A reset block is the product over no features. -/
theorem reset_acc_is_start (c : Dev nD) (t : Fin cfg0.N) (h0 : t.val % 8 = 0) (p : Fin 1024) (q : Fin 2048) :
    k0_pay1 (F := Ideal) (ix2 p q)
      = prodUpTo (actRows m c) (frozen m c) (512 * (t.val % 8)) (1024 * (t.val / 16) + p.val) (2048 * (t.val / 8 % 2) + q.val) := by
  rw [reset_acc_apply, h0]
  exact (prodUpTo_zero _ _ _ _).symm

theorem reset_lacc_is_start (c : Dev nD) (t : Fin cfg0.N) (h0 : t.val % 8 = 0) (p : Fin 1024) (r : Fin 16) :
    k0_pay2 (F := Ideal) (ix2 p r)
      = prodUpTo (actRows m c) (down m c) (512 * (t.val % 8)) (1024 * (t.val / 16) + p.val) r.val := by
  rw [reset_lacc_apply, h0]
  exact (prodUpTo_zero _ _ _ _).symm

/-- The point before a point that is not at step 0 is the previous step of the same tiles. -/
theorem acc_prev (c : Dev nD) (t : Fin cfg0.N) (h0 : ¬t.val % 8 = 0) (p : Fin 1024) (q : Fin 2048) :
    accAt m c (t.val - 1) (ix2 p q)
      = prodUpTo (actRows m c) (frozen m c) (512 * (t.val % 8)) (1024 * (t.val / 16) + p.val) (2048 * (t.val / 8 % 2) + q.val) := by
  show prodUpTo (actRows m c) (frozen m c) (512 * ((t.val - 1) % 8 + 1)) (1024 * ((t.val - 1) / 16) + p.val) (2048 * ((t.val - 1) / 8 % 2) + q.val) = _
  rw [show (t.val - 1) % 8 + 1 = t.val % 8 by omega, show (t.val - 1) / 16 = t.val / 16 by omega,
    show (t.val - 1) / 8 % 2 = t.val / 8 % 2 by omega]

theorem lacc_prev (c : Dev nD) (t : Fin cfg0.N) (h0 : ¬t.val % 8 = 0) (p : Fin 1024) (r : Fin 16) :
    laccAt m c (t.val - 1) (ix2 p r)
      = prodUpTo (actRows m c) (down m c) (512 * (t.val % 8)) (1024 * (t.val / 16) + p.val) r.val := by
  show prodUpTo (actRows m c) (down m c) (512 * ((t.val - 1) % 8 + 1)) (1024 * ((t.val - 1) / 16) + p.val) r.val = _
  rw [show (t.val - 1) % 8 + 1 = t.val % 8 by omega, show (t.val - 1) / 16 = t.val / 16 by omega]

/-- The induction's step at point `t`, given the point before (when there is one). -/
theorem carried_step (c : Dev nD) (t : Fin cfg0.N)
    (ih : t.val ≠ 0 → (outsAt0 m c (t.val - 1) (Nat.lt_of_le_of_lt (Nat.sub_le _ _) t.isLt)).2.1 = accAt m c (t.val - 1) ∧ (outsAt0 m c (t.val - 1) (Nat.lt_of_le_of_lt (Nat.sub_le _ _) t.isLt)).2.2 = laccAt m c (t.val - 1)) :
    (outsAt0 m c t.val t.isLt).2.1 = accAt m c t.val ∧ (outsAt0 m c t.val t.isLt).2.2 = laccAt m c t.val := by
  by_cases h0 : t.val % 8 = 0
  · have h1 : ¬t.val % 8 = 7 := by omega
    rw [outsAt0_A m c t h0 h1]
    dsimp only
    exact ⟨(acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans
        (acc_grow m c t (k0_pay1 (F := Ideal)) (reset_acc_is_start m c t h0)),
      (lacc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).trans
        (lacc_grow m c t (k0_pay2 (F := Ideal)) (reset_lacc_is_start m c t h0))⟩
  · obtain ⟨ia, il⟩ := ih (fun hz => h0 (by rw [hz]))
    by_cases h1 : t.val % 8 = 7
    · rw [outsAt0_C m c t h0 h1]
      dsimp only
      exact ⟨(acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans
          (acc_grow m c t (outsAt0 m c (t.val - 1) (Nat.lt_of_le_of_lt (Nat.sub_le _ _) t.isLt)).2.1 (fun p q => by rw [ia]; exact acc_prev m c t h0 p q)),
        (lacc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans
          (lacc_grow m c t (outsAt0 m c (t.val - 1) (Nat.lt_of_le_of_lt (Nat.sub_le _ _) t.isLt)).2.2 (fun p r => by rw [il]; exact lacc_prev m c t h0 p r))⟩
    · rw [outsAt0_B m c t h0 h1]
      dsimp only
      exact ⟨(acc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans
          (acc_grow m c t (outsAt0 m c (t.val - 1) (Nat.lt_of_le_of_lt (Nat.sub_le _ _) t.isLt)).2.1 (fun p q => by rw [ia]; exact acc_prev m c t h0 p q)),
        (lacc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans
          (lacc_grow m c t (outsAt0 m c (t.val - 1) (Nat.lt_of_le_of_lt (Nat.sub_le _ _) t.isLt)).2.2 (fun p r => by rw [il]; exact lacc_prev m c t h0 p r))⟩

/-- After every point the two carried blocks are the partial products. -/
theorem carried (c : Dev nD) : ∀ (n : ℕ) (hn : n < cfg0.N),
    (outsAt0 m c n hn).2.1 = accAt m c n ∧ (outsAt0 m c n hn).2.2 = laccAt m c n
  | 0, hn => carried_step m c ⟨0, hn⟩ (fun h => absurd rfl h)
  | n + 1, hn => carried_step m c ⟨n + 1, hn⟩ (fun _ => carried c n (Nat.lt_of_succ_lt hn))

/-- Where entry `(p, q)` of the output block at point `t` sits in the output array. -/
theorem out_entry (t : Fin cfg0.N) (p : Fin 1024) (q : Fin 2048)
    (h1 : 1024 * (t.val / 16) + p.val < 16384) (h2 : 2048 * (t.val / 8 % 2) + q.val < 4096) :
    ((cfg0.win 5).blk t).view.emb (ix2 p q)
      = ix2 (⟨1024 * (t.val / 16) + p.val, h1⟩ : Fin 16384) (⟨2048 * (t.val / 8 % 2) + q.val, h2⟩ : Fin 4096) :=
  funext fun a => Fin.ext (by
    match a with
    | ⟨0, _⟩ => show win0_5.index t 0 * 1024 + 1 * p.val = 1024 * (t.val / 16) + p.val; rw [(tile_out t).1]; omega
    | ⟨1, _⟩ => show win0_5.index t 1 * 2048 + 1 * q.val = 2048 * (t.val / 8 % 2) + q.val; rw [(tile_out t).2]; omega)

/-- At the last step of a reduction the stored output block is the tile of `rows` at the point's row and column tiles. -/
theorem out_tile (c : Dev nD) (t : Fin cfg0.N) (h1 : t.val % 8 = 7) :
    (outsAt0 m c t.val t.isLt).1
      = ((cfg0.win 5).blk t).view.read (Elt Ideal)
          (Cert.LoraLayer.rows (actRows m c) (frozen m c) (biasRow m c) (down m c) (up m c)) := by
  have h0 : ¬t.val % 8 = 0 := by omega
  have ht := point_lt t
  obtain ⟨ia, il⟩ := carried m c (t.val - 1) (Nat.lt_of_le_of_lt (Nat.sub_le _ _) t.isLt)
  have ea := acc_grow m c t (outsAt0 m c (t.val - 1) (Nat.lt_of_le_of_lt (Nat.sub_le _ _) t.isLt)).2.1 (fun p q => by rw [ia]; exact acc_prev m c t h0 p q)
  have el := lacc_grow m c t (outsAt0 m c (t.val - 1) (Nat.lt_of_le_of_lt (Nat.sub_le _ _) t.isLt)).2.2 (fun p r => by rw [il]; exact lacc_prev m c t h0 p r)
  rw [outsAt0_C m c t h0 h1]
  dsimp only
  refine (out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).trans ?_
  rw [ea, el]
  funext y
  obtain ⟨p, q, rfl⟩ : ∃ (p : Fin 1024) (q : Fin 2048), y = ix2 p q := ⟨y 0, y 1, eq_ix2 y⟩
  have hr : 1024 * (t.val / 16) + p.val < 16384 := by have := p.isLt; omega
  have hc : 2048 * (t.val / 8 % 2) + q.val < 4096 := by have := q.isLt; omega
  have e8 : 512 * (t.val % 8 + 1) = 4096 := by omega
  refine (out_apply (upBlk m c t) (laccAt m c t.val) (accAt m c t.val) (biasBlk m c t) p q).trans ?_
  rw [View.read_apply, out_entry t p q hr hc, Cert.LoraLayer.rows_apply]
  have eacc : accAt m c t.val (ix2 p q)
      = ∑ d : Fin 4096, actRows m c (ix2 ⟨1024 * (t.val / 16) + p.val, hr⟩ d) * frozen m c (ix2 d ⟨2048 * (t.val / 8 % 2) + q.val, hc⟩) := by
    show prodUpTo (actRows m c) (frozen m c) (512 * (t.val % 8 + 1)) (1024 * (t.val / 16) + p.val) (2048 * (t.val / 8 % 2) + q.val) = _
    rw [e8]
    exact prodUpTo_full (actRows m c) (frozen m c) hr hc
  have elacc : ∀ r : Fin 16, laccAt m c t.val (ix2 p r)
      = ∑ d : Fin 4096, actRows m c (ix2 ⟨1024 * (t.val / 16) + p.val, hr⟩ d) * down m c (ix2 d r) := fun r => by
    show prodUpTo (actRows m c) (down m c) (512 * (t.val % 8 + 1)) (1024 * (t.val / 16) + p.val) r.val = _
    rw [e8]
    exact prodUpTo_full (actRows m c) (down m c) hr r.isLt
  rw [eacc, biasBlk_apply m c t q, at2_of_lt (biasRow m c) Nat.one_pos hc]
  simp only [elacc, fun r : Fin 16 => upBlk_apply m c t r q, fun r : Fin 16 => at2_of_lt (up m c) r.isLt hc]
  rfl

end Cert.KernelIdeal.Accum

end
-- ==== Proof.Result.lean ====
/-
  What the kernel's program leaves in its result, at the ideal instance: the layer of its arguments.

  Three steps around the tiled computation.
    * Before it, the program flattens the activations to 16384 rows and the bias to a 1 × 4096 row (two reshapes); the
      other three arrays reach it as they were launched.
    * The output array is written back once per (row tile, column tile), at the last of the tile pair's 8 reduction
      steps; what is written is that tile of `rows` (the accumulation lemma), and the 16 × 2 tiles cover the array: entry
      `(r, o)` lies in the tile of the point `16 · (r / 1024) + 8 · (o / 2048) + 7`. So the output array ends at `rows`.
    * After it, one reshape splits the rows back into (batch, position); reshaping the rows form back is the layer
      (`layer_eq_rows`).
-/
import proofs.«115661_j69011534512954_1_alg».proof.Proof.Accum
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx
open Cert.KernelIdeal.Blocks Cert.KernelIdeal.Accum

variable (m : (ℓ : Loc nD τ sig) → Buf (Elt Ideal) ℓ) (ρ : Dev nD → PrngReg)

/-- The output array's contents after the tiled computation: the layer on rows, of the arrays as it found them. -/
abbrev rowsOut (c : Dev nD) : (⟨2, ![16384, 4096]⟩ : Shape).Idx → EReal :=
  Cert.LoraLayer.rows (actRows m c) (frozen m c) (biasRow m c) (down m c) (up m c)

/-! ## The write-backs and their cover -/

/-- What a write-back writes is its tile of `rows`. -/
theorem written_back (c : Dev nD) (t : Fin cfg0.N) (hf : (cfg0.win 5).flush t = true) :
    (dats m 0 c).flushed 5 t = ((cfg0.win 5).blk t).view.read (Elt Ideal) (rowsOut m c) := by
  have h1 : t.val % 8 = 7 := (flush0_5 t).mp hf
  show (cfg0.win 5).cut (grid0.coords t) ((dats m 0 c).after 5 t) = _
  rw [after0_5]
  exact out_tile m c t h1

/-- An entry of the output array is in point `t`'s tile iff each coordinate is in the tile's range. -/
theorem mem_tile (t : Fin cfg0.N) (i : S16384x4096.Idx) :
    i ∈ ((cfg0.win 5).blk t).view.set
      ↔ ∀ a : Fin 2, win0_5.index t a * S1024x2048.size a ≤ (i a).val ∧ (i a).val < win0_5.index t a * S1024x2048.size a + S1024x2048.size a := by
  show i ∈ ((View.whole main_v2).slice (win0_5.rect t)).set ↔ _
  rw [View.set_slice_whole, Rect.mem_set_unit]
  exact Iff.rfl

/-- Every entry of the output array is written back by some point. -/
theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 256 := N_0
  have hlt : 16 * ((i 0).val / 1024) + 8 * ((i 1).val / 2048) + 7 < cfg0.N := by rw [hN]; omega
  refine ⟨⟨16 * ((i 0).val / 1024) + 8 * ((i 1).val / 2048) + 7, hlt⟩, (flush0_5 _).mpr (by dsimp only; omega), ?_⟩
  rw [mem_tile]
  intro a
  match a with
  | ⟨0, _⟩ =>
    show win0_5.index _ (0 : Fin 2) * 1024 ≤ (i 0).val ∧ (i 0).val < win0_5.index _ (0 : Fin 2) * 1024 + 1024
    rw [(tile_out _).1]; dsimp only; omega
  | ⟨1, _⟩ =>
    show win0_5.index _ (1 : Fin 2) * 2048 ≤ (i 1).val ∧ (i 1).val < win0_5.index _ (1 : Fin 2) * 2048 + 2048
    rw [(tile_out _).2]; dsimp only; omega

/-- The output array after the tiled computation. -/
theorem out_array (c : Dev nD) : (dats m 0 c).arrAt 5 cfg0.N = rowsOut m c :=
  (dats m 0 c).arrAt_eq_of_cover 5 (rowsOut m c) (written_back m c) covered

/-! ## The reshapes before it -/

theorem actRows_eq (c : Dev nD) :
    actRows m c = shapeCast S16384x4096 (m ((c : Thread nD τ).loc main_arg0)) shapeCasts_S8x2048x4096_S16384x4096 := by
  show StableHlo.after hostOps0 (fun b => m (c, b)) (Proc.devRef .tc main_v0) = _
  after_results
  rfl

theorem biasRow_eq (c : Dev nD) :
    biasRow m c = shapeCast S1x4096 (m ((c : Thread nD τ).loc main_arg2)) shapeCasts_S4096_S1x4096 := by
  show StableHlo.after hostOps0 (fun b => m (c, b)) (Proc.devRef .tc main_v1) = _
  after_results
  rfl

/-! ## The reshape after it, and the result -/

/-- The program's result: the layer of its five arguments. -/
theorem result_eq (c : Dev nD) :
    Pipeline.afterTail₀ cfgs (dats m) 0 (V0 m) [hostOps1] c main_v3
      = Cert.LoraLayer.layer (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2) = rowsOut m c from
    (Pipeline.withArrays_arr spec0 launch0.win.arr_inj c _ _ 5).trans (out_array m c)]
  show shapeCast S8x2048x4096 (Cert.LoraLayer.rows (actRows m c) (frozen m c) (biasRow m c) (down m c) (up m c)) shapeCasts_S16384x4096_S8x2048x4096 = _
  rw [actRows_eq, biasRow_eq, show frozen m c = m ((c : Thread nD τ).loc main_arg1) from V_main_arg1 m c,
    show down m c = m ((c : Thread nD τ).loc main_arg3) from V_main_arg3 m c,
    show up m c = m ((c : Thread nD τ).loc main_arg4) from V_main_arg4 m c]
  exact Cert.LoraLayer.layer_eq_rows _ _ _ _ _ shapeCasts_S8x2048x4096_S16384x4096 shapeCasts_S4096_S1x4096 shapeCasts_S16384x4096_S8x2048x4096

/-- The run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v3)
        = Cert.LoraLayer.layer (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Result

end
-- ==== Proof.RefValue.lean ====
/-
  The reference program's result, read entry by entry, is the layer.

  The reference contracts the activations with the frozen weight over the feature axis, adds the bias along the last
  axis, contracts the activations with the adapter's down-projection and the result with its up-projection, multiplies
  by the scale and adds. Reading each of its operations at an entry `(n, s, o)` — a contraction as the sum over the
  contracted index, a broadcast at the coordinate it keeps — gives, term by term, the formula `layer` is defined by.
-/
import proofs.«115661_j69011534512954_1_alg».proof.Defs
import proofs.«115661_j69011534512954_1_alg».proof.Proof.Gen.ReferenceIdeal.Run
import proofs.«115661_j69011534512954_1_alg».proof.Proof.Gen.ReferenceIdeal.Read
import proofs.«115661_j69011534512954_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The frozen product reads the activations at `(n, s, k)` … -/
theorem lhs_frozen (n : Fin 8) (s : Fin 2048) (o : Fin 4096) (k : Fin 4096) :
    lidx_main_v2 (ix3 n s o) k = ix3 n s k :=
  funext fun a => by match a with | ⟨0, _⟩ => rfl | ⟨1, _⟩ => rfl | ⟨2, _⟩ => rfl
/-- … and the weight at `(k, o)`. -/
theorem rhs_frozen (n : Fin 8) (s : Fin 2048) (o : Fin 4096) (k : Fin 4096) :
    ridx_main_v2 (ix3 n s o) k = ix2 k o :=
  funext fun a => by match a with | ⟨0, _⟩ => rfl | ⟨1, _⟩ => rfl
/-- The up-projection reads the down-projected activations at `(n, s, r)` … -/
theorem lhs_up (n : Fin 8) (s : Fin 2048) (o : Fin 4096) (r : Fin 16) :
    lidx_main_v1 (ix3 n s o) r = ix3 n s r :=
  funext fun a => by match a with | ⟨0, _⟩ => rfl | ⟨1, _⟩ => rfl | ⟨2, _⟩ => rfl
/-- … and the up-projection matrix at `(r, o)`. -/
theorem rhs_up (n : Fin 8) (s : Fin 2048) (o : Fin 4096) (r : Fin 16) :
    ridx_main_v1 (ix3 n s o) r = ix2 r o :=
  funext fun a => by match a with | ⟨0, _⟩ => rfl | ⟨1, _⟩ => rfl
/-- The down-projection reads the activations at `(n, s, k)` … -/
theorem lhs_down (n : Fin 8) (s : Fin 2048) (r : Fin 16) (k : Fin 4096) :
    lidx_main_v0 (ix3 n s r) k = ix3 n s k :=
  funext fun a => by match a with | ⟨0, _⟩ => rfl | ⟨1, _⟩ => rfl | ⟨2, _⟩ => rfl
/-- … and the down-projection matrix at `(k, r)`. -/
theorem rhs_down (n : Fin 8) (s : Fin 2048) (r : Fin 16) (k : Fin 4096) :
    ridx_main_v0 (ix3 n s r) k = ix2 k r :=
  funext fun a => by match a with | ⟨0, _⟩ => rfl | ⟨1, _⟩ => rfl
/-- The bias, broadcast twice, is read at the feature coordinate. -/
theorem bias_at (n : Fin 8) (s : Fin 2048) (o : Fin 4096) :
    idx_main_v3 (idx_main_v4 (ix3 n s o)) = ix1 o :=
  funext fun a => by match a with | ⟨0, _⟩ => rfl

/-- The reference's result is the layer of its arguments. -/
theorem reference_eq (x : (⟨S8x2048x4096, .f32⟩ : BufTy).Contents (Elt Ideal)) (W : (⟨S4096x4096, .f32⟩ : BufTy).Contents (Elt Ideal))
    (b : (⟨S4096, .f32⟩ : BufTy).Contents (Elt Ideal)) (A : (⟨S4096x16, .f32⟩ : BufTy).Contents (Elt Ideal))
    (B : (⟨S16x4096, .f32⟩ : BufTy).Contents (Elt Ideal)) :
    val_main_v8 (F := Ideal) x W b A B = Cert.LoraLayer.layer x W b A B := by
  funext i
  obtain ⟨n, s, o, rfl⟩ : ∃ (n : Fin 8) (s : Fin 2048) (o : Fin 4096), i = ix3 n s o := ⟨i 0, i 1, i 2, eq_ix3 i⟩
  rw [val_main_v8_apply, val_main_v5_apply, val_main_v2_apply, val_main_v4_apply, val_main_v3_apply,
    val_main_v7_apply, val_main_v1_apply, val_main_v6_apply, val_main_cst_apply, Cert.LoraLayer.layer_apply]
  simp only [val_main_v0_apply, lhs_frozen, rhs_frozen, lhs_up, rhs_up, lhs_down, rhs_down, bias_at,
    Ideal.addf_def, Ideal.mulf_def, Ideal.ofBits_def]

end Cert.ReferenceIdeal.RefValue

end
-- ==== Proof.lean ====
/-
  A dense layer with a fused low-rank adapter: for activations `x` (8 × 2048 × 4096), a frozen weight `W`
  (4096 × 4096), a bias `b`, and a rank-16 adapter `A` (4096 × 16), `B` (16 × 4096), both programs compute

      out[n, s, o] = (Σ_d x[n,s,d] · W[d,o] + b[o]) + (Σ_r (Σ_d x[n,s,d] · A[d,r]) · B[r,o]) · 1.

  The reference does it with three whole contractions. The kernel flattens the activations to 16384 rows and walks a
  16 × 2 × 8 grid of (row tile, column tile, reduction step): it keeps two running blocks, the frozen product and the
  adapter's down-projection, adds the products over 512 more features at every step, and at a tile pair's last step
  stores the frozen product plus the bias row plus the down-projection times the up-projection's block, scaled.

  Over the extended reals the two agree entry by entry. A sum over 4096 features taken in 8 consecutive stretches of 512,
  started from zero, is the whole sum: addition there is associative and commutative and zero is neutral, so no finiteness
  is needed and the precondition is not used. A change of float format is the identity at the ideal instance, the matrix
  unit's product into a zero accumulator is the plain sum of products, both programs multiply by the same word for 1.0
  and add in the same grouping, and the reshapes on either side of the tiled computation keep row-major positions.

  The three frames: the kernel's two are its generated frame run; the reference's is its generated run with the result
  dropped. The idealization rewrote nothing, so the kernel's idealized program is its own text read over the extended reals.
-/
import proofs.«115661_j69011534512954_1_alg».proof.Defs
import proofs.«115661_j69011534512954_1_alg».proof.Proof.Gen.Kernel
import proofs.«115661_j69011534512954_1_alg».proof.Proof.Gen.Kernel.Skeleton
import proofs.«115661_j69011534512954_1_alg».proof.Proof.Gen.Kernel.Launch
import proofs.«115661_j69011534512954_1_alg».proof.Proof.Gen.Kernel.Points
import proofs.«115661_j69011534512954_1_alg».proof.Proof.Gen.Kernel.Frame
import proofs.«115661_j69011534512954_1_alg».proof.Proof.Gen.KernelIdeal
import proofs.«115661_j69011534512954_1_alg».proof.Proof.Gen.KernelIdeal.Skeleton
import proofs.«115661_j69011534512954_1_alg».proof.Proof.Gen.KernelIdeal.Launch
import proofs.«115661_j69011534512954_1_alg».proof.Proof.Gen.KernelIdeal.Points
import proofs.«115661_j69011534512954_1_alg».proof.Proof.Gen.KernelIdeal.Frame
import proofs.«115661_j69011534512954_1_alg».proof.Proof.Gen.ReferenceIdeal
import proofs.«115661_j69011534512954_1_alg».proof.Proof.Gen.ReferenceIdeal.Run
import proofs.«115661_j69011534512954_1_alg».proof.Proof.Gen.ReferenceIdeal.Read
import proofs.«115661_j69011534512954_1_alg».proof.Proof.Gen.Pre_finite_inputs
import proofs.«115661_j69011534512954_1_alg».proof.Proof.Result
import proofs.«115661_j69011534512954_1_alg».proof.Proof.RefValue
import Idealize.ShloMosaic.Adequacy
import Idealize.ShloMosaic.Init

noncomputable section

namespace Cert.Proof

open Idealize.ShloMosaic Idealize.SL.Sem

/-- The kernel as printed runs, faults nowhere and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the kernel's result is the layer of its arguments, and so is the reference's, of
    arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
